-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.KernelBlock.lean ====
/-
  What one grid point of each layer's kernel stores, read at an entry of its block.

  A block is 5000 rows of the node array. The body multiplies the block of node features and the block of
  neighbourhood means by the two whole weight matrices (the narrowing of the operands to a shorter float format is
  the identity on extended reals, and a product accumulated from zero is the plain sum over the contracted
  coordinate), adds the two products, then the bias row broadcast down the block; the first layer's kernel ends with
  the maximum with zero, the second's does not.
-/
import proofs.«168884_j27754078667399_1_alg».proof.Proof.Gen.KernelIdeal.Skeleton
import proofs.«168884_j27754078667399_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Idealize.ShloMosaic Idealize.ShloMosaic.ValueIdx Cert.KernelIdeal Cert.KernelIdeal.Gen

/-- Both kernels' products contract the left operand's columns with the right operand's rows, with no batch axes. -/
theorem dot_plain : PlainDot.IsPlain dot_S5000x128_S128x128_S5000x128_1_0_0_1_n_n := ⟨rfl, rfl, rfl, rfl, rfl, rfl⟩

/-- The first layer's stored block at (p, q): the two products' entries, plus the bias at q, against zero. -/
theorem pay0_at (x0 x1 : FVec Ideal S5000x128 .f32) (x2 x3 : FVec Ideal S128x128 .f32) (x4 : FVec Ideal S1x128 .f32)
    (p : Fin 5000) (q : Fin 128) :
    k0_pay1 (F := Ideal) x0 x1 x2 x3 x4 (ix2 p q)
      = max ((∑ κ : Fin 128, x0 (ix2 p κ) * x2 (ix2 κ q) + ∑ κ : Fin 128, x1 (ix2 p κ) * x3 (ix2 κ q))
              + x4 (ix2 (0 : Fin 1) q)) (Ideal.ofBits .f32 0x00000000#32) := by
  unfold k0_pay1
  have e1 := PlainDot.matmul_zero_plain dot_S5000x128_S128x128_S5000x128_1_0_0_1_n_n dot_plain none
    (truncf .bf16 x0 bitsLt_bf16_f32) (truncf .bf16 x2 bitsLt_bf16_f32) p q
  have e2 := (PlainDot.matmul_zero_plain dot_S5000x128_S128x128_S5000x128_1_0_0_1_n_n dot_plain none
    (truncf .bf16 (shapeCast S5000x128 x1 shapeCasts_S5000x128_S5000x128) bitsLt_bf16_f32) (truncf .bf16 x3 bitsLt_bf16_f32) p q).trans
    (show _ = ∑ κ : Fin 128, x1 (ix2 p κ) * x3 (ix2 κ q) by rw [shapeCast_self]; try rfl)
  have e3 := (broadcastTo_1b_ab_apply (shapeCast S1x128 x4 shapeCasts_S1x128_S1x128) broadcasts_S1x128_S5000x128 p q).trans
    (congrFun (shapeCast_self x4 shapeCasts_S1x128_S1x128) (ix2 (0 : Fin 1) q))
  show max ((_ + _) + _) _ = _
  exact congrArg₂ max (congrArg₂ (· + ·) (congrArg₂ (· + ·) e1 e2) e3) rfl

/-- The second layer's stored block at (p, q): the two products' entries plus the bias at q. -/
theorem pay1_at (x0 x1 : FVec Ideal S5000x128 .f32) (x2 x3 : FVec Ideal S128x128 .f32) (x4 : FVec Ideal S1x128 .f32)
    (p : Fin 5000) (q : Fin 128) :
    k1_pay1 (F := Ideal) x0 x1 x2 x3 x4 (ix2 p q)
      = (∑ κ : Fin 128, x0 (ix2 p κ) * x2 (ix2 κ q) + ∑ κ : Fin 128, x1 (ix2 p κ) * x3 (ix2 κ q))
          + x4 (ix2 (0 : Fin 1) q) := by
  unfold k1_pay1
  have e1 := (PlainDot.matmul_zero_plain dot_S5000x128_S128x128_S5000x128_1_0_0_1_n_n dot_plain none
    (truncf .bf16 (shapeCast S5000x128 x0 shapeCasts_S5000x128_S5000x128) bitsLt_bf16_f32) (truncf .bf16 x2 bitsLt_bf16_f32) p q).trans
    (show _ = ∑ κ : Fin 128, x0 (ix2 p κ) * x2 (ix2 κ q) by rw [shapeCast_self]; try rfl)
  have e2 := (PlainDot.matmul_zero_plain dot_S5000x128_S128x128_S5000x128_1_0_0_1_n_n dot_plain none
    (truncf .bf16 (shapeCast S5000x128 x1 shapeCasts_S5000x128_S5000x128) bitsLt_bf16_f32) (truncf .bf16 x3 bitsLt_bf16_f32) p q).trans
    (show _ = ∑ κ : Fin 128, x1 (ix2 p κ) * x3 (ix2 κ q) by rw [shapeCast_self]; try rfl)
  have e3 := (broadcastTo_1b_ab_apply (shapeCast S1x128 x4 shapeCasts_S1x128_S1x128) broadcasts_S1x128_S5000x128 p q).trans
    (congrFun (shapeCast_self x4 shapeCasts_S1x128_S1x128) (ix2 (0 : Fin 1) q))
  show (_ + _) + _ = _
  exact congrArg₂ (· + ·) (congrArg₂ (· + ·) e1 e2) e3

end Cert.KernelIdeal.Block

end
-- ==== Proof.SageLayer.lean ====
/-
  One GraphSAGE layer with mean aggregation, read at the extended reals.

  With h the node features, a the mean of each node's in-neighbours' features, two weight matrices and a bias, the
  entry (p, q) of the layer is

      sum over k of h(p,k) * Wself(k,q)  +  sum over k of a(p,k) * Wneigh(k,q)  +  b(q).

  One program adds the bias last, the other adds it between the two products. Addition of extended reals is
  commutative and associative (the infinities included), so the two orders give the same entry, and no finiteness of
  the inputs is needed. Between the two layers the features pass through max(., 0).
-/
import Idealize.ShloMosaic.PureOps.Ideal
import Idealize.ShloMosaic.Lib.ValueIdx

noncomputable section

open scoped BigOperators

namespace Cert.Sage

open Idealize.ShloMosaic Idealize.ShloMosaic.ValueIdx

/-- Node features: 100000 nodes, 128 features each. -/
abbrev Nodes : Shape := ⟨2, ![100000, 128]⟩
/-- A weight matrix: 128 input features by 128 output features. -/
abbrev Weights : Shape := ⟨2, ![128, 128]⟩
/-- A bias: one number per output feature. -/
abbrev Bias : Shape := ⟨1, ![128]⟩

/-- The entry (p, q) of a layer, the bias added last: the node's own features through the self weights, plus its
    neighbourhood mean through the neighbour weights, plus the bias. -/
def layerAt (h a : Nodes.Idx → EReal) (ws wn : Weights.Idx → EReal) (b : Bias.Idx → EReal)
    (p : Fin 100000) (q : Fin 128) : EReal :=
  (∑ κ : Fin 128, h (ix2 p κ) * ws (ix2 κ q) + ∑ κ : Fin 128, a (ix2 p κ) * wn (ix2 κ q)) + b (ix1 q)

/-- The layer as a whole array. -/
def layer (h a : Nodes.Idx → EReal) (ws wn : Weights.Idx → EReal) (b : Bias.Idx → EReal) : Nodes.Idx → EReal :=
  fun i => layerAt h a ws wn b (i 0) (i 1)

theorem layer_ix2 (h a : Nodes.Idx → EReal) (ws wn : Weights.Idx → EReal) (b : Bias.Idx → EReal)
    (p : Fin 100000) (q : Fin 128) : layer h a ws wn b (ix2 p q) = layerAt h a ws wn b p q := rfl

/-- Adding the bias between the two products gives the same entry as adding it last. -/
theorem bias_between (h a : Nodes.Idx → EReal) (ws wn : Weights.Idx → EReal) (b : Bias.Idx → EReal)
    (p : Fin 100000) (q : Fin 128) :
    (∑ κ : Fin 128, h (ix2 p κ) * ws (ix2 κ q) + b (ix1 q)) + ∑ κ : Fin 128, a (ix2 p κ) * wn (ix2 κ q)
      = layerAt h a ws wn b p q :=
  add_right_comm _ _ _

/-- The activation between the layers: every entry's maximum with zero (zero kept as the word both programs print). -/
def relu (v : Nodes.Idx → EReal) : Nodes.Idx → EReal :=
  fun i => max (v i) (Ideal.ofBits .f32 0x00000000#32)

theorem relu_apply (v : Nodes.Idx → EReal) (i : Nodes.Idx) : relu v i = max (v i) (Ideal.ofBits .f32 0x00000000#32) := rfl

end Cert.Sage

end
-- ==== Proof.KernelLayer0.lean ====
/-
  The first layer's kernel region: the array it leaves, as one function of the arrays it finds.

  The region walks 20 grid points; point t reads rows 5000 t .. 5000 t + 4999 of the node features and of the
  neighbourhood means, the two whole weight matrices and the bias row, and writes the same rows of the result. Every
  row of the result lies in exactly one point's block, so the result array is, entry by entry, the layer's formula
  followed by the maximum with zero, read off the arrays as the region finds them.
-/
import proofs.«168884_j27754078667399_1_alg».proof.Proof.Gen.KernelIdeal.Frame
import proofs.«168884_j27754078667399_1_alg».proof.Proof.KernelBlock
import proofs.«168884_j27754078667399_1_alg».proof.Proof.SageLayer
import Idealize.ShloMosaic.Lib.Pipeline.Value
import Idealize.ShloMosaic.Lib.ValueIdx

set_option maxRecDepth 16384

noncomputable section

open scoped BigOperators

namespace Cert.KernelIdeal.Layer0

open Idealize.ShloMosaic Idealize.ShloMosaic.TcCoe Idealize.ShloMosaic.ValueIdx Idealize.SL.Sem Cert.KernelIdeal Cert.KernelIdeal.Gen
open Idealize.ShloMosaic.Pipeline (Dat Cfg Window)

-- the buffer contents the region is entered with
variable (V : (c : Dev nD) → (b : Ref sig .tc) → Buf (Elt Ideal) ((c : Thread nD τ).loc b))

theorem origin : (![0, 0] : Fin 2 → Nat) = fun _ => 0 := funext fun a => by fin_cases a <;> rfl

/-- The bias, held as a one-row matrix, as a vector. -/
def biasRow (r : S1x128.Idx → EReal) : Sage.Bias.Idx → EReal := fun k => r (ix2 (0 : Fin 1) (k 0))

/-- What the region leaves in its result array. -/
def arr (c : Dev nD) : Sage.Nodes.Idx → EReal :=
  Sage.relu (Sage.layer (V c main_arg0) (V c main_v18) (V c main_arg1) (V c main_arg3) (biasRow (V c main_v19)))

/-- Where each window's block sits at point t: the two node windows and the result move down the rows with t, the
    weights and the bias stay whole. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem point_lt (t : Fin cfg0.N) : t.val < 20 := lt_of_lt_of_eq t.isLt N_0

/-- Row p of point t's block is row 5000 t + p of the array. -/
def row (t : Fin cfg0.N) (p : Fin 5000) : Fin 100000 :=
  ⟨t.val * 5000 + p.val, by have := point_lt t; have := p.isLt; omega⟩

/-- The node features' block at point t, read at (p, κ). -/
theorem read_nodes (c : Dev nD) (t : Fin cfg0.N) (p : Fin 5000) (κ : Fin 128) :
    iblk0 V c 0 t (ix2 p κ) = V c main_arg0 (ix2 (row t p) κ) := by
  show V c main_arg0 (((cfg0.win 0).blk t).view.emb (ix2 p κ)) = _
  refine congrArg (V c main_arg0) ?_
  obtain ⟨-, -, e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * κ.val = κ.val; omega

/-- The neighbourhood means' block at point t, read at (p, κ). -/
theorem read_means (c : Dev nD) (t : Fin cfg0.N) (p : Fin 5000) (κ : Fin 128) :
    iblk0 V c 1 t (ix2 p κ) = V c main_v18 (ix2 (row t p) κ) := by
  show V c main_v18 (((cfg0.win 1).blk t).view.emb (ix2 p κ)) = _
  refine congrArg (V c main_v18) ?_
  obtain ⟨-, -, -, -, e0, e1, -⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 128 + 1 * κ.val = κ.val; omega

/-- The self weights' block is the whole matrix at every point. -/
theorem read_wself (c : Dev nD) (t : Fin cfg0.N) (κ q : Fin 128) :
    iblk0 V c 2 t (ix2 κ q) = V c main_arg1 (ix2 κ q) := by
  show V c main_arg1 (((cfg0.win 2).blk t).view.emb (ix2 κ q)) = _
  refine congrArg (V c main_arg1) ?_
  obtain ⟨-, -, -, -, -, -, e0, e1, -⟩ := idx_facts t
  funext a; apply Fin.ext
  match a with
  | ⟨0, _⟩ => show win0_2.index t (0 : Fin 2) * 128 + 1 * κ.val = κ.val; omega
  | ⟨1, _⟩ => show win0_2.index t (1 : Fin 2) * 128 + 1 * q.val = q.val; omega

/-- The neighbour weights' block is the whole matrix at every point. -/
theorem read_wneigh (c : Dev nD) (t : Fin cfg0.N) (κ q : Fin 128) :
    iblk0 V c 3 t (ix2 κ q) = V c main_arg3 (ix2 κ q) := by
  show V c main_arg3 (((cfg0.win 3).blk t).view.emb (ix2 κ q)) = _
  refine congrArg (V c main_arg3) ?_
  obtain ⟨-, -, -, -, -, -, -, -, e0, e1, -⟩ := idx_facts t
  funext a; apply Fin.ext
  match a with
  | ⟨0, _⟩ => show win0_3.index t (0 : Fin 2) * 128 + 1 * κ.val = κ.val; omega
  | ⟨1, _⟩ => show win0_3.index t (1 : Fin 2) * 128 + 1 * q.val = q.val; omega

/-- The bias window's block is the whole row at every point. -/
theorem read_bias (c : Dev nD) (t : Fin cfg0.N) (q : Fin 128) :
    iblk0 V c 4 t (ix2 (0 : Fin 1) q) = V c main_v19 (ix2 (0 : Fin 1) q) := by
  show V c main_v19 (((cfg0.win 4).blk t).view.emb (ix2 (0 : Fin 1) q)) = _
  refine congrArg (V c main_v19) ?_
  obtain ⟨-, -, -, -, -, -, -, -, -, -, e0, e1⟩ := idx_facts t
  funext a; apply Fin.ext
  match a with
  | ⟨0, _⟩ => show win0_4.index t (0 : Fin 2) * 1 + 1 * 0 = 0; omega
  | ⟨1, _⟩ => show win0_4.index t (1 : Fin 2) * 128 + 1 * q.val = q.val; omega

/-- What point t writes back is its block of rows of `arr`. -/
theorem flushed_eq (c : Dev nD) (t : Fin cfg0.N) :
    (dat0 V c).flushed 5 t = ((cfg0.win 5).blk t).view.read (Elt Ideal) (arr V c) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin, View.ld_unit_zero (S := S1x128) origin]
  funext j
  have hp : (j 0).val < 5000 := (j 0).isLt
  have hq : (j 1).val < 128 := (j 1).isLt
  have hx : (win0 5).xinj (grid0.coords t) j = ix2 (⟨(j 0).val, hp⟩ : Fin 5000) (⟨(j 1).val, hq⟩ : Fin 128) :=
    funext fun a => match a with | ⟨0, _⟩ => rfl | ⟨1, _⟩ => rfl
  have hemb : ((cfg0.win 5).blk t).view.emb j = ix2 (row t ⟨(j 0).val, hp⟩) (⟨(j 1).val, hq⟩ : Fin 128) := by
    obtain ⟨e0, e1, -⟩ := idx_facts t
    funext a; apply Fin.ext
    match a with
    | ⟨0, _⟩ => show win0_5.index t (0 : Fin 2) * 5000 + 1 * (j 0).val = t.val * 5000 + (j 0).val; omega
    | ⟨1, _⟩ => show win0_5.index t (1 : Fin 2) * 128 + 1 * (j 1).val = (j 1).val; omega
  show k0_pay1 (F := Ideal) (iblk0 V c 0 t) (iblk0 V c 1 t) (iblk0 V c 2 t) (iblk0 V c 3 t) (iblk0 V c 4 t)
      ((win0 5).xinj (grid0.coords t) j) = arr V c (((cfg0.win 5).blk t).view.emb j)
  rw [hx, hemb]
  refine (Block.pay0_at (iblk0 V c 0 t) (iblk0 V c 1 t) (iblk0 V c 2 t) (iblk0 V c 3 t) (iblk0 V c 4 t)
    ⟨(j 0).val, hp⟩ ⟨(j 1).val, hq⟩).trans ?_
  simp only [read_nodes V c t, read_means V c t, read_wself V c t, read_wneigh V c t, read_bias V c t]
  rfl

/-- An entry of the array is in point t's block when each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v20).slice (win0_5.rect t)).set ↔ _
  rw [View.set_slice_whole, Rect.mem_set_unit]
  exact Iff.rfl

/-- Every entry of the result is in the block of the point numbered by its row's quotient by 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < cfg0.N := by
    show (i 0).val / 5000 < grid0.N
    rw [N_0]; omega
  obtain ⟨e0, e1, -⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    have e0' : win0_5.index ⟨(i 0).val / 5000, ht⟩ (0 : Fin 2) = (i 0).val / 5000 := e0
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-- The region's result array after all its write-backs. -/
theorem final (c : Dev nD) : (dat0 V c).arrAt 5 cfg0.N = arr V c :=
  (dat0 V c).arrAt_eq_of_cover 5 (arr V c) (fun t _ => flushed_eq V c t) cover

end Cert.KernelIdeal.Layer0

end
-- ==== Proof.KernelLayer1.lean ====
/-
  The second layer's kernel region: the array it leaves, as one function of the arrays it finds.

  The same 20 blocks of 5000 rows as in the first layer's region, over this region's own operands, and without the
  closing maximum with zero: the result array is, entry by entry, the layer's formula read off the arrays as the
  region finds them.
-/
import proofs.«168884_j27754078667399_1_alg».proof.Proof.Gen.KernelIdeal.Frame
import proofs.«168884_j27754078667399_1_alg».proof.Proof.KernelBlock
import proofs.«168884_j27754078667399_1_alg».proof.Proof.SageLayer
import Idealize.ShloMosaic.Lib.Pipeline.Value
import Idealize.ShloMosaic.Lib.ValueIdx

set_option maxRecDepth 16384

noncomputable section

open scoped BigOperators

namespace Cert.KernelIdeal.Layer1

open Idealize.ShloMosaic Idealize.ShloMosaic.TcCoe Idealize.ShloMosaic.ValueIdx Idealize.SL.Sem Cert.KernelIdeal Cert.KernelIdeal.Gen
open Idealize.ShloMosaic.Pipeline (Dat Cfg Window)

-- the buffer contents the region is entered with
variable (V : (c : Dev nD) → (b : Ref sig .tc) → Buf (Elt Ideal) ((c : Thread nD τ).loc b))

theorem origin : (![0, 0] : Fin 2 → Nat) = fun _ => 0 := funext fun a => by fin_cases a <;> rfl

/-- The bias, held as a one-row matrix, as a vector. -/
def biasRow (r : S1x128.Idx → EReal) : Sage.Bias.Idx → EReal := fun k => r (ix2 (0 : Fin 1) (k 0))

/-- What the region leaves in its result array. -/
def arr (c : Dev nD) : Sage.Nodes.Idx → EReal :=
  Sage.layer (V c main_v20) (V c main_v39) (V c main_arg4) (V c main_arg6) (biasRow (V c main_v40))

/-- Where each window's block sits at point t: the two node windows and the result move down the rows with t, the
    weights and the bias stay whole. -/
theorem idx_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem point_lt (t : Fin cfg1.N) : t.val < 20 := lt_of_lt_of_eq t.isLt N_1

/-- Row p of point t's block is row 5000 t + p of the array. -/
def row (t : Fin cfg1.N) (p : Fin 5000) : Fin 100000 :=
  ⟨t.val * 5000 + p.val, by have := point_lt t; have := p.isLt; omega⟩

/-- The node features' block at point t, read at (p, κ). -/
theorem read_nodes (c : Dev nD) (t : Fin cfg1.N) (p : Fin 5000) (κ : Fin 128) :
    iblk1 V c 0 t (ix2 p κ) = V c main_v20 (ix2 (row t p) κ) := by
  show V c main_v20 (((cfg1.win 0).blk t).view.emb (ix2 p κ)) = _
  refine congrArg (V c main_v20) ?_
  obtain ⟨-, -, e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * κ.val = κ.val; omega

/-- The neighbourhood means' block at point t, read at (p, κ). -/
theorem read_means (c : Dev nD) (t : Fin cfg1.N) (p : Fin 5000) (κ : Fin 128) :
    iblk1 V c 1 t (ix2 p κ) = V c main_v39 (ix2 (row t p) κ) := by
  show V c main_v39 (((cfg1.win 1).blk t).view.emb (ix2 p κ)) = _
  refine congrArg (V c main_v39) ?_
  obtain ⟨-, -, -, -, e0, e1, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 128 + 1 * κ.val = κ.val; omega

/-- The self weights' block is the whole matrix at every point. -/
theorem read_wself (c : Dev nD) (t : Fin cfg1.N) (κ q : Fin 128) :
    iblk1 V c 2 t (ix2 κ q) = V c main_arg4 (ix2 κ q) := by
  show V c main_arg4 (((cfg1.win 2).blk t).view.emb (ix2 κ q)) = _
  refine congrArg (V c main_arg4) ?_
  obtain ⟨-, -, -, -, -, -, e0, e1, -⟩ := idx_facts t
  funext a; apply Fin.ext
  match a with
  | ⟨0, _⟩ => show win1_2.index t (0 : Fin 2) * 128 + 1 * κ.val = κ.val; omega
  | ⟨1, _⟩ => show win1_2.index t (1 : Fin 2) * 128 + 1 * q.val = q.val; omega

/-- The neighbour weights' block is the whole matrix at every point. -/
theorem read_wneigh (c : Dev nD) (t : Fin cfg1.N) (κ q : Fin 128) :
    iblk1 V c 3 t (ix2 κ q) = V c main_arg6 (ix2 κ q) := by
  show V c main_arg6 (((cfg1.win 3).blk t).view.emb (ix2 κ q)) = _
  refine congrArg (V c main_arg6) ?_
  obtain ⟨-, -, -, -, -, -, -, -, e0, e1, -⟩ := idx_facts t
  funext a; apply Fin.ext
  match a with
  | ⟨0, _⟩ => show win1_3.index t (0 : Fin 2) * 128 + 1 * κ.val = κ.val; omega
  | ⟨1, _⟩ => show win1_3.index t (1 : Fin 2) * 128 + 1 * q.val = q.val; omega

/-- The bias window's block is the whole row at every point. -/
theorem read_bias (c : Dev nD) (t : Fin cfg1.N) (q : Fin 128) :
    iblk1 V c 4 t (ix2 (0 : Fin 1) q) = V c main_v40 (ix2 (0 : Fin 1) q) := by
  show V c main_v40 (((cfg1.win 4).blk t).view.emb (ix2 (0 : Fin 1) q)) = _
  refine congrArg (V c main_v40) ?_
  obtain ⟨-, -, -, -, -, -, -, -, -, -, e0, e1⟩ := idx_facts t
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- What point t writes back is its block of rows of `arr`. -/
theorem flushed_eq (c : Dev nD) (t : Fin cfg1.N) :
    (dat1 V c).flushed 5 t = ((cfg1.win 5).blk t).view.read (Elt Ideal) (arr V c) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin, View.ld_unit_zero (S := S1x128) origin]
  funext j
  have hp : (j 0).val < 5000 := (j 0).isLt
  have hq : (j 1).val < 128 := (j 1).isLt
  have hx : (win1 5).xinj (grid1.coords t) j = ix2 (⟨(j 0).val, hp⟩ : Fin 5000) (⟨(j 1).val, hq⟩ : Fin 128) :=
    funext fun a => match a with | ⟨0, _⟩ => rfl | ⟨1, _⟩ => rfl
  have hemb : ((cfg1.win 5).blk t).view.emb j = ix2 (row t ⟨(j 0).val, hp⟩) (⟨(j 1).val, hq⟩ : Fin 128) := by
    obtain ⟨e0, e1, -⟩ := idx_facts t
    funext a; apply Fin.ext
    match a with
    | ⟨0, _⟩ => show win1_5.index t (0 : Fin 2) * 5000 + 1 * (j 0).val = t.val * 5000 + (j 0).val; omega
    | ⟨1, _⟩ => show win1_5.index t (1 : Fin 2) * 128 + 1 * (j 1).val = (j 1).val; omega
  show k1_pay1 (F := Ideal) (iblk1 V c 0 t) (iblk1 V c 1 t) (iblk1 V c 2 t) (iblk1 V c 3 t) (iblk1 V c 4 t)
      ((win1 5).xinj (grid1.coords t) j) = arr V c (((cfg1.win 5).blk t).view.emb j)
  rw [hx, hemb]
  refine (Block.pay1_at (iblk1 V c 0 t) (iblk1 V c 1 t) (iblk1 V c 2 t) (iblk1 V c 3 t) (iblk1 V c 4 t)
    ⟨(j 0).val, hp⟩ ⟨(j 1).val, hq⟩).trans ?_
  simp only [read_nodes V c t, read_means V c t, read_wself V c t, read_wneigh V c t, read_bias V c t]
  rfl

/-- An entry of the array is in point t's block when each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v41).slice (win1_5.rect t)).set ↔ _
  rw [View.set_slice_whole, Rect.mem_set_unit]
  exact Iff.rfl

/-- Every entry of the result is in the block of the point numbered by its row's quotient by 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < cfg1.N := by
    show (i 0).val / 5000 < grid1.N
    rw [N_1]; omega
  obtain ⟨e0, e1, -⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    have e0' : win1_5.index ⟨(i 0).val / 5000, ht⟩ (0 : Fin 2) = (i 0).val / 5000 := e0
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    omega

/-- The region's result array after all its write-backs. -/
theorem final (c : Dev nD) : (dat1 V c).arrAt 5 cfg1.N = arr V c :=
  (dat1 V c).arrAt_eq_of_cover 5 (arr V c) (fun t _ => flushed_eq V c t) cover

end Cert.KernelIdeal.Layer1

end
-- ==== Proof.MeanAgg.lean ====
/-
  The neighbourhood mean, as one function of the node features and the edge lists.

  Both programs compute it on the host by the same operations in the same order, each over its own copy of the
  gather's and the scatters' dimension numbers; the copies hold the same numbers, so the two functions are one. The
  certificate never looks inside this function: it only needs that both programs apply it to equal features.
-/
import proofs.«168884_j27754078667399_1_alg».proof.Proof.Gen.KernelIdeal
import proofs.«168884_j27754078667399_1_alg».proof.Proof.Gen.ReferenceIdeal
import Idealize.ShloMosaic.PureOps.Ideal

noncomputable section

namespace Cert.KernelIdeal

open Idealize.ShloMosaic
open Facts₀

/-- The mean of each node's in-neighbours' features: gather the source rows (a negative source index counted from the
    end first), add them into their destination rows from zero, and divide each destination row by the number of its
    incoming edges, at least one. One term, the operations in the order the program applies them. -/
def meanAgg (h : FVec Ideal S100000x128 .f32) (src dst : IVec S1600000 32) : FVec Ideal S100000x128 .f32 :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

end Cert.KernelIdeal

namespace Cert.ReferenceIdeal

open Idealize.ShloMosaic
open Facts₀

/-- The mean of each node's in-neighbours' features: gather the source rows (a negative source index counted from the
    end first), add them into their destination rows from zero, and divide each destination row by the number of its
    incoming edges, at least one. One term, the operations in the order the program applies them. -/
def meanAgg (h : FVec Ideal S100000x128 .f32) (src dst : IVec S1600000 32) : FVec Ideal S100000x128 .f32 :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

end Cert.ReferenceIdeal

namespace Cert.Sage

open Idealize.ShloMosaic

/-- The two programs' neighbourhood means are one function. -/
theorem meanAgg_eq (h : FVec Ideal Cert.KernelIdeal.S100000x128 .f32) (src dst : IVec Cert.KernelIdeal.S1600000 32) :
    Cert.KernelIdeal.meanAgg h src dst = Cert.ReferenceIdeal.meanAgg h src dst := rfl

end Cert.Sage

end
-- ==== Proof.SageNet.lean ====
/-
  The two-layer network both programs compute, as one function of the nine arguments.

  The hidden features are the first layer of the node features and their neighbourhood means, through max(., 0); the
  result is the second layer of the hidden features and THEIR neighbourhood means. The neighbourhood mean is carried
  as one function of features and edge lists and never opened.
-/
import proofs.«168884_j27754078667399_1_alg».proof.Proof.SageLayer
import proofs.«168884_j27754078667399_1_alg».proof.Proof.MeanAgg

noncomputable section

namespace Cert.Sage

open Idealize.ShloMosaic

/-- An edge list: one node index per edge. -/
abbrev Edges : Shape := ⟨1, ![1600000]⟩

/-- The features after the first layer and its activation. -/
def hidden (x : Nodes.Idx → EReal) (ws0 : Weights.Idx → EReal) (b0 : Bias.Idx → EReal) (wn0 : Weights.Idx → EReal)
    (src dst : IVec Edges 32) : Nodes.Idx → EReal :=
  relu (layer x (Cert.KernelIdeal.meanAgg x src dst) ws0 wn0 b0)

/-- The network's result: the second layer over the hidden features. -/
def net (x : Nodes.Idx → EReal) (ws0 : Weights.Idx → EReal) (b0 : Bias.Idx → EReal) (wn0 : Weights.Idx → EReal)
    (ws1 : Weights.Idx → EReal) (b1 : Bias.Idx → EReal) (wn1 : Weights.Idx → EReal) (src dst : IVec Edges 32) :
    Nodes.Idx → EReal :=
  layer (hidden x ws0 b0 wn0 src dst) (Cert.KernelIdeal.meanAgg (hidden x ws0 b0 wn0 src dst) src dst) ws1 wn1 b1

end Cert.Sage

end
-- ==== Proof.KernelResult.lean ====
/-
  The kernel program's result, as the network's function of the nine arguments.

  The program is: host operations (the neighbourhood mean of the node features, the first bias as a row), the first
  layer's kernel region, host operations again (the neighbourhood mean of the hidden features, the second bias as a
  row), the second layer's kernel region. Each region leaves its layer's array of the arrays it is entered with; the
  host operations before a region compute its neighbourhood-mean operand from what the previous stretch left, and no
  host operation and no region writes an argument. Reading the result buffer back through these four stretches gives
  the network's function of the arguments.
-/
import proofs.«168884_j27754078667399_1_alg».proof.Proof.KernelLayer0
import proofs.«168884_j27754078667399_1_alg».proof.Proof.KernelLayer1
import proofs.«168884_j27754078667399_1_alg».proof.Proof.KernelRun
import proofs.«168884_j27754078667399_1_alg».proof.Proof.SageNet
import Idealize.ShloMosaic.Lib.StableHlo.Run
import Idealize.ShloMosaic.Lib.ValueLayout

set_option maxRecDepth 16384

noncomputable section

namespace Cert.KernelIdeal.Result

open Idealize.ShloMosaic Idealize.ShloMosaic.TcCoe Idealize.ShloMosaic.ValueIdx Idealize.SL.Sem Cert.KernelIdeal Cert.KernelIdeal.Gen
open Idealize.ShloMosaic.StableHlo

variable (m : (ℓ : Loc nD τ sig) → Buf (Elt Ideal) ℓ) (ρ : Dev nD → PrngReg)

/-! ## What the first region is entered with -/

theorem V1_nodes (c : Dev nD) : V1 m ρ c main_arg0 = m ((c : Thread nD τ).loc main_arg0) := by
  show StableHlo.after hostOps0 (W0 m ρ c) (Proc.devRef .tc main_arg0) = _
  after_results_simp <;> rfl

theorem V1_wself (c : Dev nD) : V1 m ρ c main_arg1 = m ((c : Thread nD τ).loc main_arg1) := by
  show StableHlo.after hostOps0 (W0 m ρ c) (Proc.devRef .tc main_arg1) = _
  after_results_simp <;> rfl

theorem V1_wneigh (c : Dev nD) : V1 m ρ c main_arg3 = m ((c : Thread nD τ).loc main_arg3) := by
  show StableHlo.after hostOps0 (W0 m ρ c) (Proc.devRef .tc main_arg3) = _
  after_results_simp <;> rfl

/-- The first region's neighbourhood-mean operand is the mean of the node features. -/
theorem V1_means (c : Dev nD) :
    V1 m ρ c main_v18 = meanAgg (m ((c : Thread nD τ).loc main_arg0)) (m ((c : Thread nD τ).loc main_arg7)) (m ((c : Thread nD τ).loc main_arg8)) := by
  show StableHlo.after hostOps0 (W0 m ρ c) (Proc.devRef .tc main_v18) = _
  after_results_simp <;> rfl

/-- A bias held as a one-row matrix, read back as the vector it was reshaped from. -/
theorem biasRow_reshape (b : S128.Idx → EReal) (r : S1x128.Idx → EReal)
    (e : r = shapeCast S1x128 b shapeCasts_S128_S1x128) : Layer0.biasRow r = b := by
  funext k
  obtain ⟨q, rfl⟩ : ∃ q : Fin 128, k = ix1 q := ⟨k 0, eq_ix1 k⟩
  show r (ix2 (0 : Fin 1) q) = b (ix1 q)
  rw [e]
  exact shapeCast_a_1a_apply b shapeCasts_S128_S1x128 0 q

theorem V1_bias (c : Dev nD) : Layer0.biasRow (V1 m ρ c main_v19) = m ((c : Thread nD τ).loc main_arg2) :=
  biasRow_reshape _ _ (by
    show StableHlo.after hostOps0 (W0 m ρ c) (Proc.devRef .tc main_v19) = _
    after_results_simp <;> rfl)

/-- The first region leaves the hidden features. -/
theorem layer0_arr (c : Dev nD) : Layer0.arr (V1 m ρ) c = (Sage.hidden (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) := by
  unfold Layer0.arr Sage.hidden
  rw [V1_nodes m ρ c, V1_means m ρ c, V1_wself m ρ c, V1_wneigh m ρ c, V1_bias m ρ c]

/-! ## What the first region leaves, and what no stretch before the second region writes -/

theorem W2_hidden (c : Dev nD) : W2 m ρ c (Proc.devRef .tc main_v20) = (Sage.hidden (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) :=
  (W2_arr m ρ c 5).trans ((Layer0.final (V1 m ρ) c).trans (layer0_arr m ρ c))

theorem W2_src (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

theorem W2_dst (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

theorem W2_wself (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results_simp <;> rfl)

theorem W2_wneigh (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

theorem W2_bias (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)

/-! ## What the second region is entered with -/

theorem V3_nodes (c : Dev nD) : V3 m ρ c main_v20 = (Sage.hidden (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) := by
  show StableHlo.after hostOps1 (W2 m ρ c) (Proc.devRef .tc main_v20) = _
  after_results_simp
  exact W2_hidden m ρ c

theorem V3_wself (c : Dev nD) : V3 m ρ c main_arg4 = m ((c : Thread nD τ).loc main_arg4) := by
  show StableHlo.after hostOps1 (W2 m ρ c) (Proc.devRef .tc main_arg4) = _
  after_results_simp
  exact W2_wself m ρ c

theorem V3_wneigh (c : Dev nD) : V3 m ρ c main_arg6 = m ((c : Thread nD τ).loc main_arg6) := by
  show StableHlo.after hostOps1 (W2 m ρ c) (Proc.devRef .tc main_arg6) = _
  after_results_simp
  exact W2_wneigh m ρ c

/-- The second region's neighbourhood-mean operand is the mean of the hidden features. -/
theorem V3_means (c : Dev nD) :
    V3 m ρ c main_v39 = meanAgg (Sage.hidden (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) (m ((c : Thread nD τ).loc main_arg7)) (m ((c : Thread nD τ).loc main_arg8)) := by
  show StableHlo.after hostOps1 (W2 m ρ c) (Proc.devRef .tc main_v39) = _
  after_results_simp
  rw [W2_hidden m ρ c, W2_src m ρ c, W2_dst m ρ c]
  rfl

theorem V3_bias (c : Dev nD) : Layer0.biasRow (V3 m ρ c main_v40) = m ((c : Thread nD τ).loc main_arg5) :=
  biasRow_reshape _ _ (by
    show StableHlo.after hostOps1 (W2 m ρ c) (Proc.devRef .tc main_v40) = _
    after_results_simp
    rw [W2_bias m ρ c]
    rfl)

/-- The second region leaves the network's result. -/
theorem layer1_arr (c : Dev nD) : Layer1.arr (V3 m ρ) c = (Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  unfold Layer1.arr Sage.net
  rw [show Layer1.biasRow (V3 m ρ c main_v40) = Layer0.biasRow (V3 m ρ c main_v40) from rfl,
    V3_nodes m ρ c, V3_means m ρ c, V3_wself m ρ c, V3_wneigh m ρ c, V3_bias m ρ c]

/-! ## The result buffer, and the run -/

/-- The result buffer at the last boundary is the network's function of the arguments. -/
theorem result (c : Dev nD) : W4 m ρ c (Proc.devRef .tc main_v41) = (Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W4_arr m ρ c 5).trans ((Layer1.final (V3 m ρ) c).trans (layer1_arr m ρ c))

/-- Every weakly fair execution of the kernel program terminates, nothing faulting, with the result buffer at the
    network's function of the arguments and the arguments as launched. -/
theorem run : θ_run defs (onTc (τ := τ) (main (F := Ideal))) ⟨m, fun _ => 0, ρ⟩ (fun r => ∀ c : Dev nD,
      r.2.mem ((c.tc : Thread nD τ).loc main_v41) = (Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (RunValue.run_value m ρ)

end Cert.KernelIdeal.Result

end
-- ==== Proof.RefResult.lean ====
/-
  The reference program's result, as the network's function of the nine arguments.

  The reference computes each layer on the host as (features times the self weights, plus the bias broadcast down
  the rows), plus (neighbourhood means times the neighbour weights). A host matrix product is, at the extended reals,
  the plain sum over the contracted coordinate, and adding the bias between the two products gives the same entry as
  adding it last. Its activation is the maximum with the same zero word, and its neighbourhood mean is the same
  function of features and edge lists as the kernel program's.
-/
import proofs.«168884_j27754078667399_1_alg».proof.Proof.Gen.ReferenceIdeal.Read
import proofs.«168884_j27754078667399_1_alg».proof.Proof.LibPlainDot
import proofs.«168884_j27754078667399_1_alg».proof.Proof.SageNet
import Idealize.ShloMosaic.Lib.ValueIdx

noncomputable section

open scoped BigOperators

namespace Cert.ReferenceIdeal.Result

open Idealize.ShloMosaic Idealize.ShloMosaic.TcCoe Idealize.ShloMosaic.ValueIdx Idealize.SL.Sem
open Cert.ReferenceIdeal Cert.ReferenceIdeal.Gen Cert.ReferenceIdeal.Read

/-- The reference's products contract the left operand's columns with the right operand's rows, with no batch axes. -/
theorem dot_plain : PlainDot.IsPlain dot_S100000x128_S128x128_S100000x128_1_0_0_1_n_n := ⟨rfl, rfl, rfl, rfl, rfl, rfl⟩

/-- A host product of node-shaped features and a weight matrix, at (p, q). -/
theorem dot_at (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ κ : Fin 128, l (ix2 p κ) * r (ix2 κ q) := by
  simp only [Host.dotGeneral]
  exact PlainDot.dotGeneral_plain dot_S100000x128_S128x128_S100000x128_1_0_0_1_n_n dot_plain _ _ l r p q

/-- The bias, made a row and broadcast down the rows, reads at (p, q) as the bias at q. -/
theorem bias_at (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) :=
  (val_main_v21_apply (F := Ideal) b (ix2 p q)).trans
    ((val_main_v20_apply (F := Ideal) b _).trans (congrArg b (funext fun a => match a with | ⟨0, _⟩ => rfl)))

/-- One layer as the reference adds it up, at (p, q): the layer's entry. -/
theorem layer_at (h a : FVec Ideal S100000x128 .f32) (ws wn : FVec Ideal S128x128 .f32) (b : FVec Ideal S128 .f32)
    (p : Fin 100000) (q : Fin 128) :
    addf (addf (Host.dotGeneral (F := Ideal) dot_S100000x128_S128x128_S100000x128_1_0_0_1_n_n none h ws)
        (broadcastInDim S100000x128 ![0, 1] bcast_S1x128_S100000x128_0_1 (broadcastInDim S1x128 ![1] bcast_S128_S1x128_1 b)))
      (Host.dotGeneral (F := Ideal) dot_S100000x128_S128x128_S100000x128_1_0_0_1_n_n none a wn) (ix2 p q)
      = Sage.layerAt h a ws wn b p q := by
  show (Host.dotGeneral (F := Ideal) dot_S100000x128_S128x128_S100000x128_1_0_0_1_n_n none h ws (ix2 p q)
      + broadcastInDim S100000x128 ![0, 1] bcast_S1x128_S100000x128_0_1 (broadcastInDim S1x128 ![1] bcast_S128_S1x128_1 b) (ix2 p q))
      + Host.dotGeneral (F := Ideal) dot_S100000x128_S128x128_S100000x128_1_0_0_1_n_n none a wn (ix2 p q) = _
  rw [dot_at h ws p q, dot_at a wn p q, bias_at b p q]
  exact Sage.bias_between h a ws wn b p q

/-- The first neighbourhood mean is the shared function of the node features. -/
theorem agg_first (x0 : FVec Ideal S100000x128 .f32) (x7 x8 : IVec S1600000 32) :
    val_main_v18 (F := Ideal) x0 x7 x8 = Cert.KernelIdeal.meanAgg x0 x7 x8 :=
  (show val_main_v18 (F := Ideal) x0 x7 x8 = Cert.ReferenceIdeal.meanAgg x0 x7 x8 from rfl).trans (Sage.meanAgg_eq x0 x7 x8).symm

/-- The second neighbourhood mean is the shared function of the hidden features. -/
theorem agg_second (x0 : FVec Ideal S100000x128 .f32) (x1 : FVec Ideal S128x128 .f32) (x2 : FVec Ideal S128 .f32)
    (x3 : FVec Ideal S128x128 .f32) (x7 x8 : IVec S1600000 32) :
    val_main_v44 (F := Ideal) x0 x1 x2 x3 x7 x8
      = Cert.KernelIdeal.meanAgg (val_main_v25 (F := Ideal) x0 x1 x2 x3 x7 x8) x7 x8 :=
  (show val_main_v44 (F := Ideal) x0 x1 x2 x3 x7 x8
      = Cert.ReferenceIdeal.meanAgg (val_main_v25 (F := Ideal) x0 x1 x2 x3 x7 x8) x7 x8 from rfl).trans
    (Sage.meanAgg_eq _ x7 x8).symm

/-- The reference's activated first layer is the hidden features. -/
theorem hidden_eq (x0 : FVec Ideal S100000x128 .f32) (x1 : FVec Ideal S128x128 .f32) (x2 : FVec Ideal S128 .f32)
    (x3 : FVec Ideal S128x128 .f32) (x7 x8 : IVec S1600000 32) :
    val_main_v25 (F := Ideal) x0 x1 x2 x3 x7 x8 = Sage.hidden x0 x1 x2 x3 x7 x8 := by
  funext i
  obtain ⟨p, q, rfl⟩ : ∃ (p : Fin 100000) (q : Fin 128), i = ix2 p q := ⟨i 0, i 1, eq_ix2 i⟩
  show max (addf (addf (Host.dotGeneral (F := Ideal) dot_S100000x128_S128x128_S100000x128_1_0_0_1_n_n none x0 x1)
        (broadcastInDim S100000x128 ![0, 1] bcast_S1x128_S100000x128_0_1 (broadcastInDim S1x128 ![1] bcast_S128_S1x128_1 x2)))
      (Host.dotGeneral (F := Ideal) dot_S100000x128_S128x128_S100000x128_1_0_0_1_n_n none (val_main_v18 (F := Ideal) x0 x7 x8) x3) (ix2 p q))
      (val_main_call0_v0 (F := Ideal) (ix2 p q))
    = max (Sage.layerAt x0 (Cert.KernelIdeal.meanAgg x0 x7 x8) x1 x3 x2 p q) (Ideal.ofBits .f32 0x00000000#32)
  rw [agg_first x0 x7 x8, layer_at x0 (Cert.KernelIdeal.meanAgg x0 x7 x8) x1 x3 x2 p q, val_main_call0_v0_apply]
  rfl

/-- The reference's last stage is the network's function of the arguments. -/
theorem net_eq (x0 : FVec Ideal S100000x128 .f32) (x1 : FVec Ideal S128x128 .f32) (x2 : FVec Ideal S128 .f32)
    (x3 x4 : FVec Ideal S128x128 .f32) (x5 : FVec Ideal S128 .f32) (x6 : FVec Ideal S128x128 .f32) (x7 x8 : IVec S1600000 32) :
    val_main_v50 (F := Ideal) x0 x1 x2 x3 x4 x5 x6 x7 x8 = Sage.net x0 x1 x2 x3 x4 x5 x6 x7 x8 := by
  funext i
  obtain ⟨p, q, rfl⟩ : ∃ (p : Fin 100000) (q : Fin 128), i = ix2 p q := ⟨i 0, i 1, eq_ix2 i⟩
  show addf (addf (Host.dotGeneral (F := Ideal) dot_S100000x128_S128x128_S100000x128_1_0_0_1_n_n none (val_main_v25 (F := Ideal) x0 x1 x2 x3 x7 x8) x4)
        (broadcastInDim S100000x128 ![0, 1] bcast_S1x128_S100000x128_0_1 (broadcastInDim S1x128 ![1] bcast_S128_S1x128_1 x5)))
      (Host.dotGeneral (F := Ideal) dot_S100000x128_S128x128_S100000x128_1_0_0_1_n_n none (val_main_v44 (F := Ideal) x0 x1 x2 x3 x7 x8) x6) (ix2 p q)
    = Sage.layerAt (Sage.hidden x0 x1 x2 x3 x7 x8) (Cert.KernelIdeal.meanAgg (Sage.hidden x0 x1 x2 x3 x7 x8) x7 x8) x4 x6 x5 p q
  rw [agg_second x0 x1 x2 x3 x7 x8, hidden_eq x0 x1 x2 x3 x7 x8]
  exact layer_at (Sage.hidden x0 x1 x2 x3 x7 x8) (Cert.KernelIdeal.meanAgg (Sage.hidden x0 x1 x2 x3 x7 x8) x7 x8) x4 x6 x5 p q

/-- The reference's result buffer, after its run, is the network's function of its arguments. -/
theorem result (m : (ℓ : Loc nD τ sig) → Buf (Elt Ideal) ℓ) (c : Dev nD) :
    Cert.ReferenceIdeal.Value.res_main_v50 m c
      = Sage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (val_main_v50_eq (F := Ideal) m c).trans (net_eq _ _ _ _ _ _ _ _ _)

end Cert.ReferenceIdeal.Result

end
-- ==== Proof.lean ====
/-
  A two-layer GraphSAGE network with mean aggregation: the kernel program against its reference, over the
  extended reals.

  Both programs compute, for node features x, two layers' weights and biases and an edge list (src, dst),

      hidden = max(x Wself0 + mean(x) Wneigh0 + b0, 0),      result = hidden Wself1 + mean(hidden) Wneigh1 + b1,

  where mean(h) gives every node the mean of h over its incoming edges' source nodes (zero for a node with none).
  The neighbourhood mean is computed on the host by both programs with the same operations, so it is carried as one
  function and never opened. The dense part differs only in arrangement: the kernel program computes each layer in a
  kernel region, 5000 rows at a time, narrowing the matrix products' operands to a shorter float format (the
  identity on extended reals) and adding the bias after both products; the reference computes it on whole arrays
  and adds the bias between the products. A product accumulated from zero and a host matrix product are the same sum
  over the contracted coordinate, and addition of extended reals is commutative and associative, so the two
  arrangements agree entry by entry; the inputs' finiteness is not used.

  The modules: SageLayer (the layer's entry and the law about the bias's place), MeanAgg (the neighbourhood mean, one
  function for both programs), SageNet (the network), LibPlainDot (a plain matrix product read at an entry),
  KernelBlock (what a grid point stores), KernelLayer0 and KernelLayer1 (each region's array from its blocks),
  KernelRun (the kernel program's run with its result buffer named), KernelResult (that buffer read back to the
  arguments), RefResult (the reference's result read stage by stage).
-/
import proofs.«168884_j27754078667399_1_alg».proof.Defs
import proofs.«168884_j27754078667399_1_alg».proof.Proof.Gen.Kernel
import proofs.«168884_j27754078667399_1_alg».proof.Proof.Gen.Kernel.Skeleton
import proofs.«168884_j27754078667399_1_alg».proof.Proof.Gen.Kernel.Launch
import proofs.«168884_j27754078667399_1_alg».proof.Proof.Gen.Kernel.Points
import proofs.«168884_j27754078667399_1_alg».proof.Proof.Gen.Kernel.Frame
import proofs.«168884_j27754078667399_1_alg».proof.Proof.Gen.KernelIdeal
import proofs.«168884_j27754078667399_1_alg».proof.Proof.Gen.KernelIdeal.Skeleton
import proofs.«168884_j27754078667399_1_alg».proof.Proof.Gen.KernelIdeal.Launch
import proofs.«168884_j27754078667399_1_alg».proof.Proof.Gen.KernelIdeal.Points
import proofs.«168884_j27754078667399_1_alg».proof.Proof.Gen.KernelIdeal.Frame
import proofs.«168884_j27754078667399_1_alg».proof.Proof.Gen.ReferenceIdeal
import proofs.«168884_j27754078667399_1_alg».proof.Proof.Gen.ReferenceIdeal.Run
import proofs.«168884_j27754078667399_1_alg».proof.Proof.Gen.ReferenceIdeal.Read
import proofs.«168884_j27754078667399_1_alg».proof.Proof.Gen.Pre_finite_inputs
import proofs.«168884_j27754078667399_1_alg».proof.Proof.KernelResult
import proofs.«168884_j27754078667399_1_alg».proof.Proof.RefResult
import Idealize.ShloMosaic.Adequacy
import Idealize.ShloMosaic.Init

noncomputable section

namespace Cert.Proof

open Idealize.ShloMosaic Idealize.ShloMosaic.TcCoe Idealize.SL.Sem

/-- The kernel program as printed runs to the end, nothing faulting, its arguments unchanged. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program at the extended reals rewrote no operation: nothing to preserve. -/
theorem preserves : Cert.preserves_Kernel_KernelIdeal := trivial

/-- From memories agreeing on the arguments both programs end with the network's function of those arguments in
    their result buffers. -/
theorem algebraic : Cert.algebraic_KernelIdeal_ReferenceIdeal := by
  intro m ρ m' ρ' _ hagree
  refine ⟨fun c => Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Result.result m' c, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
